-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x16x64x64 : Shape := ⟨5, ![64, 2, 16, 64, 64]⟩
abbrev S_ : Shape := ⟨0, ![]⟩

class Facts : Prop where
  bcast_S_S64x2x16x64x64 : S_.BroadcastsInDim S64x2x16x64x64 (![] : Fin 0 → Fin S64x2x16x64x64.rank)
  reducesTo_S64x2x16x64x64_S_d0_1_2_3_4 : S64x2x16x64x64.ReducesTo [0, 1, 2, 3, 4] S_
  h_S_ : 0 < S_.numel

variable [Facts]

def fn {F : FTy → Type} [FloatOps F] (main_arg0 : FVec F S64x2x16x64x64 .f32) : IVec S_ 1 :=
  let main_v0 : FVec F S64x2x16x64x64 .f32 := Host.absf main_arg0
  let main_cst : FVec F S_ .f32 := constant S_ .f32 0x7F800000#32
  let main_v1 : FVec F S64x2x16x64x64 .f32 := broadcastInDim S64x2x16x64x64 ![] bcast_S_S64x2x16x64x64 main_cst
  let main_v2 : IVec S64x2x16x64x64 1 := cmpf .olt main_v0 main_v1
  let main_c : IVec S_ 1 := constantI S_ 1 1#1
  let main_v3 : IVec S_ 1 := (fun x v => Host.reduce IntOp.andi x v reducesTo_S64x2x16x64x64_S_d0_1_2_3_4 h_S_) main_v2 main_c
  main_v3
-- ==== Kernel.lean ====
abbrev S64x2x16x64x64 : Shape := ⟨5, ![64, 2, 16, 64, 64]⟩
abbrev S65536x128 : Shape := ⟨2, ![65536, 128]⟩
abbrev S1024x128 : Shape := ⟨2, ![1024, 128]⟩
abbrev S512x128 : Shape := ⟨2, ![512, 128]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x2x16x64x64, .f32⟩
  | .hbm, ⟨1, _⟩ => ⟨S65536x128, .f32⟩
  | .hbm, ⟨2, _⟩ => ⟨S65536x128, .f32⟩
  | .hbm, ⟨3, _⟩ => ⟨S64x2x16x64x64, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | _, _ => ⟨S64x2x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x2x16x64x64_S65536x128 : S64x2x16x64x64.ShapeCasts S65536x128
  inb_S1024x128_S512x128_0_0 : ∀ a, (![0, 0] : Fin 2 → Nat) a + S512x128.size a ≤ S1024x128.size a
  h_S512x128 : 0 < S512x128.numel
  shapeCasts_S512x128_S512x128 : S512x128.ShapeCasts S512x128
  reduces_S512x128_S128 : S512x128.Reduces [0] S128
  shapeCasts_S128_S1x128 : S128.ShapeCasts S1x128
  reduces_S1x128_S1 : S1x128.Reduces [1] S1
  shapeCasts_S1_S1x1 : S1.ShapeCasts S1x1
  broadcasts_S1x1_S512x128 : S1x1.Broadcasts S512x128
  inb_S1024x128_S512x128_512_0 : ∀ a, (![512, 0] : Fin 2 → Nat) a + S512x128.size a ≤ S1024x128.size a
  shapeCasts_S65536x128_S64x2x16x64x64 : S65536x128.ShapeCasts S64x2x16x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)

variable [Facts₀]

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2x16x64x64 : Shape := ⟨5, ![64, 2, 16, 64, 64]⟩
abbrev S128x65536 : Shape := ⟨2, ![128, 65536]⟩
abbrev S16x65536 : Shape := ⟨2, ![16, 65536]⟩
abbrev S16 : Shape := ⟨1, ![16]⟩
abbrev S16x1 : Shape := ⟨2, ![16, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x2x16x64x64, .f32⟩
  | .hbm, ⟨1, _⟩ => ⟨S128x65536, .f32⟩
  | .hbm, ⟨2, _⟩ => ⟨S128x65536, .f32⟩
  | .hbm, ⟨3, _⟩ => ⟨S64x2x16x64x64, .f32⟩
  | .local _ .vmem, ⟨0, _⟩ => ⟨S16x65536, .f32⟩
  | .local _ .vmem, ⟨1, _⟩ => ⟨S16x65536, .f32⟩
  | .local _ .vmem, ⟨2, _⟩ => ⟨S16x65536, .f32⟩
  | .local _ .vmem, ⟨3, _⟩ => ⟨S16x65536, .f32⟩
  | _, _ => ⟨S64x2x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x2x16x64x64_S128x65536 : S64x2x16x64x64.ShapeCasts S128x65536
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  reduces_S16x65536_S16 : S16x65536.Reduces [1] S16
  shapeCasts_S16_S16x1 : S16.ShapeCasts S16x1
  broadcasts_S16x1_S16x65536 : S16x1.Broadcasts S16x65536
  shapeCasts_S128x65536_S64x2x16x64x64 : S128x65536.ShapeCasts S64x2x16x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S128x65536.size a
  hwx0_0 : ∀ i : grid0.Coords, EltTy.bits .f32 = 32 ∨ (Rect.block (s := S128x65536) S16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x65536.size a ≤ S128x65536.size a
  hwx0_1 : ∀ i : grid0.Coords, EltTy.bits .f32 = 32 ∨ (Rect.block (s := S128x65536) S16x65536.size (cc0_transform_1 i) (hinb0_1 i)).WholeWords (EltTy.packing .f32)

variable [Facts₀]

abbrev win0_0 : Pipeline.Window sig grid0 :=
  Pipeline.Window.ofSpec (Memref.whole main_v0) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.InstanceNorm.lean ====
/-
  Instance normalisation over the extended reals, away from any program.

  An instance is a family `u` of 65536 entries. With `S = ∑ u`, `Q = ∑ u²`, `c = 2⁻¹⁶` (the reciprocal of the count, an
  exact binary fraction) and `ε` the binary value of the word `0x3727C5AC`, put `μ = S·c` and
  `ρ = rsqrt (max (Q·c − μ²) 0 + ε)`. One program writes an entry `a` as `(a − μ)·ρ`, the other as `a·ρ + (0 − μ)·ρ`.
  On real entries all of `S`, `Q`, `μ` are real, the argument of `rsqrt` is a real number that is at least `ε > 0`, so
  `ρ` is real, and the two forms agree by distributivity in ℝ. (At an infinite entry they need not.)

  The two programs also lay the array out differently: one views the 5-dimensional input as 128 rows of 65536, the
  other as 65536 rows of 128 in which instance `n` is the tile of rows `512 n … 512 n + 511`. Both are row-major
  views, so entry `k` of instance `n` sits at row-major position `65536 n + k` in all three shapes, and the tile's
  double sum (over the 128 lanes of the sums over the 512 rows) is the sum over `k = 128 s + l`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.InstanceNorm

open Idealize.ShloMosaic Idealize.ShloMosaic.ValueIdx

/-! ## The two constants -/

/-- The reciprocal of the count of an instance's entries, `2⁻¹⁶`, as both programs spell it. -/
abbrev invCount : EReal := Ideal.ofBits .f32 0x37800000#32
/-- The stabiliser under the root, as both programs spell it. -/
abbrev eps : EReal := Ideal.ofBits .f32 0x3727C5AC#32

theorem invCount_eq : invCount = (((2 : ℝ) ^ (-16 : ℤ) : ℝ) : EReal) := by
  simp [Ideal.ofBits, Ideal.ieee, -EReal.coe_mul]; norm_num

theorem eps_eq : eps = ((10995116 * (2 : ℝ) ^ (-40 : ℤ) : ℝ) : EReal) := by
  simp [Ideal.ofBits, Ideal.ieee, -EReal.coe_mul]

theorem eps_pos : (0 : ℝ) < 10995116 * (2 : ℝ) ^ (-40 : ℤ) := by positivity

/-! ## One entry, normalised, in the two forms -/

/-- The mean from the sum. -/
def mean (S : EReal) : EReal := S * invCount
/-- The reciprocal standard deviation from the sum and the sum of squares. -/
def rstd (S Q : EReal) : EReal := Ideal.rsqrt (max (Q * invCount - mean S * mean S) 0 + eps)
/-- Centre, then scale. -/
def centered (a S Q : EReal) : EReal := (a - mean S) * rstd S Q
/-- Scale, then shift by the scaled negated mean. -/
def scaledShifted (a S Q : EReal) : EReal := a * rstd S Q + (0 - mean S) * rstd S Q

theorem coe_max (a b : ℝ) : max (a : EReal) (b : EReal) = ((max a b : ℝ) : EReal) :=
  (EReal.coe_strictMono.monotone.map_max).symm

/-- On real sums the reciprocal standard deviation is a real number: the root is taken of a real that is at least `ε`. -/
theorem rstd_real (S Q : ℝ) : ∃ ρ : ℝ, rstd (S : EReal) (Q : EReal) = (ρ : EReal) := by
  unfold rstd mean
  rw [invCount_eq, eps_eq, ← EReal.coe_mul, ← EReal.coe_mul, ← EReal.coe_mul, ← EReal.coe_sub, ← EReal.coe_zero, coe_max,
    ← EReal.coe_add]
  have hpos : (0 : ℝ) < max (Q * (2 : ℝ) ^ (-16 : ℤ) - S * (2 : ℝ) ^ (-16 : ℤ) * (S * (2 : ℝ) ^ (-16 : ℤ))) 0
      + 10995116 * (2 : ℝ) ^ (-40 : ℤ) :=
    add_pos_of_nonneg_of_pos (le_max_right _ _) eps_pos
  rw [Ideal.rsqrt_coe, if_neg (not_lt.mpr hpos.le), if_neg hpos.ne']
  exact ⟨_, rfl⟩

/-- THE LAW: on a real entry and real sums the two forms agree (distributivity in ℝ). -/
theorem scaledShifted_eq_centered (a S Q : ℝ) :
    scaledShifted (a : EReal) (S : EReal) (Q : EReal) = centered (a : EReal) (S : EReal) (Q : EReal) := by
  obtain ⟨ρ, hρ⟩ := rstd_real S Q
  unfold scaledShifted centered
  rw [hρ]
  unfold mean
  rw [invCount_eq]
  simp only [← EReal.coe_mul, ← EReal.coe_sub, ← EReal.coe_add, ← EReal.coe_zero]
  congr 1
  ring

/-! ## Sums -/

/-- A finite sum of real numbers, taken in the extended reals, is the real sum. -/
theorem sum_coe {ι : Type} [Fintype ι] (f : ι → ℝ) : ∑ i, (f i : EReal) = ((∑ i, f i : ℝ) : EReal) := by
  classical
  refine Finset.induction_on (Finset.univ : Finset ι) (by simp) ?_
  intro a s ha ih
  rw [Finset.sum_insert ha, Finset.sum_insert ha, ih, EReal.coe_add]

/-- Row `s`, lane `l` of a 512 × 128 tile is entry `128 s + l` of its instance. -/
def tileEquiv : Fin 512 × Fin 128 ≃ Fin 65536 where
  toFun p := ⟨p.1.val * 128 + p.2.val, by have := p.1.isLt; have := p.2.isLt; omega⟩
  invFun k := (⟨k.val / 128, by have := k.isLt; omega⟩, ⟨k.val % 128, by omega⟩)
  left_inv p := by
    have h1 := p.1.isLt; have h2 := p.2.isLt
    refine Prod.ext (Fin.ext ?_) (Fin.ext ?_)
    · show (p.1.val * 128 + p.2.val) / 128 = p.1.val; omega
    · show (p.1.val * 128 + p.2.val) % 128 = p.2.val; omega
  right_inv k := by
    refine Fin.ext ?_
    show k.val / 128 * 128 + k.val % 128 = k.val; omega

/-- The sum over the lanes of the sums over the rows of a tile is the sum over the instance. -/
theorem sum_tile (f : Fin 65536 → EReal) :
    ∑ l : Fin 128, ∑ s : Fin 512, f (tileEquiv (s, l)) = ∑ k, f k := by
  rw [Finset.sum_comm, ← Fintype.sum_prod_type (f := fun p : Fin 512 × Fin 128 => f (tileEquiv p))]
  exact Equiv.sum_comp tileEquiv f

/-! ## The three shapes and the instance's entries in each -/

abbrev S5 : Shape := ⟨5, ![64, 2, 16, 64, 64]⟩
abbrev SR : Shape := ⟨2, ![128, 65536]⟩
abbrev SK : Shape := ⟨2, ![65536, 128]⟩

/-- Entry `k` of instance `n`, as an index of the 5-dimensional array. -/
def at5 (n : Fin 128) (k : Fin 65536) : S5.Idx :=
  ix5 (n0 := 64) (n1 := 2) (n2 := 16) (n3 := 64) (n4 := 64)
    ⟨n.val / 2, by have := n.isLt; omega⟩ ⟨n.val % 2, by omega⟩
    ⟨k.val / 4096, by have := k.isLt; omega⟩ ⟨k.val / 64 % 64, by omega⟩ ⟨k.val % 64, by omega⟩

/-- It sits at row-major position `65536 n + k`. -/
theorem at5_pos (n : Fin 128) (k : Fin 65536) : (S5.rowMajor (at5 n k)).val = n.val * 65536 + k.val := by
  rw [Shape.rowMajor_val_five]
  show ((((n.val / 2) * 2 + n.val % 2) * 16 + k.val / 4096) * 64 + k.val / 64 % 64) * 64 + k.val % 64 = _
  have := k.isLt
  omega

/-- The instance an index of the 5-dimensional array belongs to … -/
def instOf (i : S5.Idx) : Fin 128 :=
  ⟨(i 0).val * 2 + (i 1).val, by
    have h0 : (i 0).val < 64 := (i 0).isLt
    have h1 : (i 1).val < 2 := (i 1).isLt
    omega⟩
/-- … and its place there. -/
def placeOf (i : S5.Idx) : Fin 65536 :=
  ⟨((i 2).val * 64 + (i 3).val) * 64 + (i 4).val, by
    have h2 : (i 2).val < 16 := (i 2).isLt
    have h3 : (i 3).val < 64 := (i 3).isLt
    have h4 : (i 4).val < 64 := (i 4).isLt
    omega⟩

theorem pos5 (i : S5.Idx) : (S5.rowMajor i).val = (instOf i).val * 65536 + (placeOf i).val := by
  rw [Shape.rowMajor_val_five]
  show (((((i 0).val * 2 + (i 1).val) * 16 + (i 2).val) * 64 + (i 3).val) * 64 + (i 4).val
    = ((i 0).val * 2 + (i 1).val) * 65536 + (((i 2).val * 64 + (i 3).val) * 64 + (i 4).val))
  omega

/-- THE RESULT, as one function of the 5-dimensional input: each entry centred by its instance's mean and scaled by its
    instance's reciprocal standard deviation. -/
def G (x : S5.Idx → EReal) : S5.Idx → EReal := fun i =>
  centered (x i) (∑ k, x (at5 (instOf i) k)) (∑ k, x (at5 (instOf i) k) * x (at5 (instOf i) k))

/-! ## The 128 × 65536 view: one instance per row -/

/-- What the row-wise program leaves in its 128 × 65536 array, as a function of that array on entry. (Its sums start
    from the zero word.) -/
def GR (X : SR.Idx → EReal) : SR.Idx → EReal := fun i =>
  centered (X i) (∑ k : Fin 65536, X (ix2 (i 0) k)) (∑ k : Fin 65536, X (ix2 (i 0) k) * X (ix2 (i 0) k))

/-- The row-major view of the input at row `n`, column `k` is entry `k` of instance `n`. -/
theorem viewR_apply (x : S5.Idx → EReal) (h : S5.ShapeCasts SR) (n : Fin 128) (k : Fin 65536) :
    shapeCast SR x h (ix2 n k) = x (at5 n k) :=
  shapeCast_apply x h _ _ (by rw [at5_pos, Shape.rowMajor_val_two]; rfl)

/-- Viewed back in five dimensions, the row-wise result is `G`. -/
theorem reshape_GR (x : S5.Idx → EReal) (h1 : S5.ShapeCasts SR) (h2 : SR.ShapeCasts S5) :
    shapeCast S5 (GR (shapeCast SR x h1)) h2 = G x := by
  funext i
  have hi : (SR.rowMajor (ix2 (instOf i) (placeOf i))).val = (S5.rowMajor i).val := by
    rw [pos5, Shape.rowMajor_val_two]; rfl
  rw [shapeCast_apply _ h2 i (ix2 (instOf i) (placeOf i)) hi]
  unfold GR G
  have hx : shapeCast SR x h1 (ix2 (instOf i) (placeOf i)) = x i := shapeCast_apply x h1 _ i hi.symm
  rw [hx]
  show centered (x i) (∑ k : Fin 65536, shapeCast SR x h1 (ix2 (instOf i) k))
    (∑ k : Fin 65536, shapeCast SR x h1 (ix2 (instOf i) k) * shapeCast SR x h1 (ix2 (instOf i) k)) = _
  simp only [viewR_apply]

/-! ## The 65536 × 128 view: one instance per tile of 512 rows -/

/-- Row `s`, lane `l` of tile `n` of a 65536 × 128 array. -/
def tile (X : SK.Idx → EReal) (n : Fin 128) (s : Fin 512) (l : Fin 128) : EReal :=
  X (ix2 (n0 := 65536) (n1 := 128) ⟨n.val * 512 + s.val, by have := n.isLt; have := s.isLt; omega⟩ l)

/-- The tile a row belongs to. -/
def tileOf (i : SK.Idx) : Fin 128 := ⟨(i 0).val / 512, by have h : (i 0).val < 65536 := (i 0).isLt; omega⟩

/-- What the tile-wise program leaves in its 65536 × 128 array, as a function of that array on entry: per lane the sum
    over the tile's rows, then the sum over the lanes; scale, then shift. -/
def GK (X : SK.Idx → EReal) : SK.Idx → EReal := fun i =>
  scaledShifted (X i) (∑ l : Fin 128, ∑ s : Fin 512, tile X (tileOf i) s l)
    (∑ l : Fin 128, ∑ s : Fin 512, tile X (tileOf i) s l * tile X (tileOf i) s l)

/-- The row-major view of the input at row `s`, lane `l` of tile `n` is entry `128 s + l` of instance `n`. -/
theorem viewK_tile (x : S5.Idx → EReal) (h : S5.ShapeCasts SK) (n : Fin 128) (s : Fin 512) (l : Fin 128) :
    tile (shapeCast SK x h) n s l = x (at5 n (tileEquiv (s, l))) := by
  unfold tile
  refine shapeCast_apply x h _ _ ?_
  rw [at5_pos, Shape.rowMajor_val_two]
  show n.val * 65536 + (s.val * 128 + l.val) = (n.val * 512 + s.val) * 128 + l.val
  omega

/-- Viewed back in five dimensions, the tile-wise result is `G` — on real entries. -/
theorem reshape_GK (x : S5.Idx → EReal) (hx : ∀ i, ∃ r : ℝ, x i = (r : EReal)) (h1 : S5.ShapeCasts SK) (h2 : SK.ShapeCasts S5) :
    shapeCast S5 (GK (shapeCast SK x h1)) h2 = G x := by
  choose f hf using hx
  funext i
  have hp : (placeOf i).val < 65536 := (placeOf i).isLt
  have hn : (instOf i).val < 128 := (instOf i).isLt
  let j : SK.Idx := ix2 (n0 := 65536) (n1 := 128) ⟨(instOf i).val * 512 + (placeOf i).val / 128, by omega⟩ ⟨(placeOf i).val % 128, by omega⟩
  have hi : (SK.rowMajor j).val = (S5.rowMajor i).val := by
    rw [pos5, Shape.rowMajor_val_two]
    show ((instOf i).val * 512 + (placeOf i).val / 128) * 128 + (placeOf i).val % 128 = _
    omega
  rw [shapeCast_apply _ h2 i j hi]
  unfold GK G
  have hxi : shapeCast SK x h1 j = x i := shapeCast_apply x h1 _ i hi.symm
  have ht : tileOf j = instOf i := Fin.ext (by
    show ((instOf i).val * 512 + (placeOf i).val / 128) / 512 = (instOf i).val
    omega)
  rw [hxi, ht]
  simp only [viewK_tile]
  rw [sum_tile (fun k => x (at5 (instOf i) k)), sum_tile (fun k => x (at5 (instOf i) k) * x (at5 (instOf i) k))]
  simp only [hf, ← EReal.coe_mul, sum_coe]
  exact scaledShifted_eq_centered _ _ _

end Cert.InstanceNorm

end
-- ==== Proof.KernelTile.lean ====
/-
  One tile of the tile-wise program, read at an index.

  The body handles two tiles of 512 rows × 128 lanes. For a tile `v` it sums each lane over the rows, sums those 128
  lane sums, does the same for `v²`, and stores `v·ρ + (0 − μ)·ρ` with `μ`, `ρ` the mean and the reciprocal standard
  deviation of these two totals. Each of the two stored values, at row `s` and lane `l`, is therefore the
  scale-then-shift form of `v (s, l)` over the tile's double sums.
-/
import proofs.«130646_g2000006276570362_pallasbulk_1028_2_alg».proof.Proof.Gen.KernelIdeal.Skeleton
import proofs.«130646_g2000006276570362_pallasbulk_1028_2_alg».proof.Proof.InstanceNorm
import Idealize.ShloMosaic.PureOps.Ideal.Laws
import Idealize.ShloMosaic.Lib.ValueIdx
import Idealize.ShloMosaic.Lib.Pipeline.Value

noncomputable section

open scoped BigOperators

namespace Cert.KernelIdeal.Tile

open Idealize.ShloMosaic Idealize.ShloMosaic.ValueIdx Cert.KernelIdeal Cert.KernelIdeal.Gen Cert.InstanceNorm

/-- The sum over the rows, at lane `l`. -/
theorem laneSum_apply (v : FVec Ideal S512x128 .f32) (h : S512x128.Reduces [0] S128) (hφ : FKind.Formats .f32)
    (hacc : (0x00000000#32 : BitVec 32) = FKind.add.neutral .f32 hφ) (l : Fin 128) :
    multiReduction .add [0] S128 v 0x00000000#32 h hφ hacc (ix1 l) = ∑ s : Fin 512, v (ix2 s l) :=
  (Ideal.multiReduction_add_single v _ h hφ hacc (ix1 l)).trans
    (Finset.sum_congr rfl fun s _ => congrArg v (funext fun a => by match a with | ⟨0, _⟩ => rfl | ⟨1, _⟩ => rfl))

/-- The sum over the lanes of the lane sums, at the one index of the 1 × 1 result. -/
theorem total_apply (v : FVec Ideal S512x128 .f32) (h1 : S512x128.Reduces [0] S128) (h2 : S128.ShapeCasts S1x128)
    (h3 : S1x128.Reduces [1] S1) (h4 : S1.ShapeCasts S1x1) (hφ : FKind.Formats .f32)
    (hacc : (0x00000000#32 : BitVec 32) = FKind.add.neutral .f32 hφ) :
    shapeCast S1x1 (multiReduction .add [1] S1 (shapeCast S1x128 (multiReduction .add [0] S128 v 0x00000000#32 h1 hφ hacc) h2)
      0x00000000#32 h3 hφ hacc) h4 (ix2 (0 : Fin 1) (0 : Fin 1)) = ∑ l : Fin 128, ∑ s : Fin 512, v (ix2 s l) := by
  refine (shapeCast_apply _ h4 (ix2 (0 : Fin 1) (0 : Fin 1)) (ix1 (0 : Fin 1)) (by rw [Shape.rowMajor_val_one, Shape.rowMajor_val_two]; rfl)).trans ?_
  refine (Ideal.multiReduction_add_single _ _ h3 hφ hacc (ix1 (0 : Fin 1))).trans ?_
  refine Finset.sum_congr rfl fun l _ => ?_
  refine (shapeCast_apply _ h2 _ (ix1 l) (by rw [Shape.rowMajor_val_one, Shape.rowMajor_val_two]; show l.val = 0 * 128 + l.val; omega)).trans ?_
  exact laneSum_apply v h1 hφ hacc l

/-- The first tile's stored value at row `s`, lane `l`. -/
theorem pay2_apply (v0 : FVec Ideal S512x128 .f32) (s : Fin 512) (l : Fin 128) :
    k0_pay2 (F := Ideal) v0 (ix2 s l)
      = scaledShifted (v0 (ix2 s l)) (∑ l' : Fin 128, ∑ s' : Fin 512, v0 (ix2 s' l'))
          (∑ l' : Fin 128, ∑ s' : Fin 512, v0 (ix2 s' l') * v0 (ix2 s' l')) := by
  unfold k0_pay2
  simp only [shapeCast_self]
  rw [addf_apply, mulf_apply,
    broadcastTo_apply _ broadcasts_S1x1_S512x128 (ix2 s l) (ix2 (0 : Fin 1) (0 : Fin 1)) (fun a => by match a with | ⟨0, _⟩ => rfl | ⟨1, _⟩ => rfl),
    broadcastTo_apply _ broadcasts_S1x1_S512x128 (ix2 s l) (ix2 (0 : Fin 1) (0 : Fin 1)) (fun a => by match a with | ⟨0, _⟩ => rfl | ⟨1, _⟩ => rfl)]
  simp only [rsqrt, mulf_apply, subf_apply, addf_apply, maximumf_apply, broadcast_apply, Ideal.rsqrt_def]
  unfold scaledShifted rstd mean
  simp only [Ideal.ofBits_def, Ideal.ofBits_zero_f32]
  erw [total_apply, total_apply]
  simp only [mulf_apply]

/-- The second tile's stored value at row `s`, lane `l`: the same function of the second tile (its three pieces are the
    tile itself, the lane sums of its squares, and its total). -/
theorem pay1_apply (v : FVec Ideal S512x128 .f32) (s : Fin 512) (l : Fin 128) :
    k0_pay1 (F := Ideal) (k0_pay3 v) (k0_pay4 v) (k0_pay5 v) (ix2 s l)
      = scaledShifted (v (ix2 s l)) (∑ l' : Fin 128, ∑ s' : Fin 512, v (ix2 s' l'))
          (∑ l' : Fin 128, ∑ s' : Fin 512, v (ix2 s' l') * v (ix2 s' l')) := by
  unfold k0_pay1 k0_pay4 k0_pay5 k0_pay3
  simp only [shapeCast_self]
  rw [addf_apply, mulf_apply,
    broadcastTo_apply _ broadcasts_S1x1_S512x128 (ix2 s l) (ix2 (0 : Fin 1) (0 : Fin 1)) (fun a => by match a with | ⟨0, _⟩ => rfl | ⟨1, _⟩ => rfl),
    broadcastTo_apply _ broadcasts_S1x1_S512x128 (ix2 s l) (ix2 (0 : Fin 1) (0 : Fin 1)) (fun a => by match a with | ⟨0, _⟩ => rfl | ⟨1, _⟩ => rfl)]
  simp only [rsqrt, mulf_apply, subf_apply, addf_apply, maximumf_apply, broadcast_apply, Ideal.rsqrt_def]
  unfold scaledShifted rstd mean
  simp only [Ideal.ofBits_def, Ideal.ofBits_zero_f32]
  erw [total_apply, total_apply]
  simp only [mulf_apply]

end Cert.KernelIdeal.Tile

end
-- ==== Proof.KernelArray.lean ====
/-
  The tile-wise program's run, read as values.

  Its region walks a 65536 × 128 array in 64 blocks of 1024 rows; each block holds two tiles of 512 rows and the body
  normalises each tile by its own sums. So what a point writes back is its block of ONE function of the array on entry:
  every entry scaled and shifted by the sums of the tile it lies in. The blocks tile the array, so the array ends holding
  that function. Before the region the input is viewed row-major as 65536 × 128, after it the array is viewed back in
  five dimensions; on real entries the result is the instance normalisation `G` of the input.
-/
import proofs.«130646_g2000006276570362_pallasbulk_1028_2_alg».proof.Proof.Gen.KernelIdeal.Frame
import proofs.«130646_g2000006276570362_pallasbulk_1028_2_alg».proof.Proof.KernelTile
import proofs.«130646_g2000006276570362_pallasbulk_1028_2_alg».proof.Proof.InstanceNorm
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Array

open Idealize.ShloMosaic Idealize.ShloMosaic.TcCoe Idealize.ShloMosaic.ValueIdx Idealize.SL.Sem
open Idealize.ShloMosaic.Pipeline (Dat)
open Cert.KernelIdeal Cert.KernelIdeal.Gen Cert.InstanceNorm

/-! ## The block after the body, at a local index -/

/-- Row `s` of the half (rows 0–511 or 512–1023) that local row `y0` lies in. -/
def halfRow (y0 : Fin 1024) (s : Fin 512) : Fin 1024 := ⟨y0.val / 512 * 512 + s.val, by have := y0.isLt; have := s.isLt; omega⟩

/-- What the body leaves in the output block, at any local index: the entry scaled and shifted by the sums of its half. -/
theorem out_apply (x0 : Vec Ideal S1024x128 .f32) (j : S1024x128.Idx) :
    out0_1 (F := Ideal) x0 j
      = scaledShifted (x0 j) (∑ l : Fin 128, ∑ s : Fin 512, x0 (ix2 (halfRow (j 0) s) l))
          (∑ l : Fin 128, ∑ s : Fin 512, x0 (ix2 (halfRow (j 0) s) l) * x0 (ix2 (halfRow (j 0) s) l)) := by
  unfold out0_1
  refine View.canon_apply_of_pieces (Val := Elt Ideal) (fun y : S1024x128.Idx => scaledShifted (x0 y) (∑ l : Fin 128, ∑ s : Fin 512, x0 (ix2 (halfRow (y 0) s) l))
          (∑ l : Fin 128, ∑ s : Fin 512, x0 (ix2 (halfRow (y 0) s) l) * x0 (ix2 (halfRow (y 0) s) l))) _ ?_ j (cover0_1 _ _ j)
  intro p hp
  simp only [List.mem_cons, List.mem_nil_iff, or_false] at hp
  rcases hp with rfl | rfl
  · intro x
    obtain ⟨s, l, rfl⟩ : ∃ (s : Fin 512) (l : Fin 128), x = ix2 s l := ⟨x 0, x 1, eq_ix2 x⟩
    dsimp only
    have hemb : ∀ (s' : Fin 512) (l' : Fin 128), r0_1.emb (ix2 s' l')
        = ix2 (n0 := 1024) (n1 := 128) ⟨512 + s'.val, by have := s'.isLt; omega⟩ l' := fun s' l' =>
      funext fun a => Fin.ext (by
        match a with
        | ⟨0, _⟩ => show 512 + 1 * s'.val = 512 + s'.val; omega
        | ⟨1, _⟩ => show 0 + 1 * l'.val = l'.val; omega)
    have hld : ∀ (s' : Fin 512) (l' : Fin 128), View.ld x0 r0_1 (ix2 s' l')
        = x0 (ix2 (n0 := 1024) (n1 := 128) ⟨512 + s'.val, by have := s'.isLt; omega⟩ l') := fun s' l' => congrArg x0 (hemb s' l')
    have key : ∀ s' : Fin 512, halfRow (r0_1.emb (ix2 s l) 0) s' = ⟨512 + s'.val, by have := s'.isLt; omega⟩ := fun s' =>
      Fin.ext (by show (512 + 1 * s.val) / 512 * 512 + s'.val = 512 + s'.val; have := s.isLt; omega)
    rw [Tile.pay1_apply]
    simp only [key, hld]
    rw [hemb]
  · intro x
    obtain ⟨s, l, rfl⟩ : ∃ (s : Fin 512) (l : Fin 128), x = ix2 s l := ⟨x 0, x 1, eq_ix2 x⟩
    dsimp only
    have hemb : ∀ (s' : Fin 512) (l' : Fin 128), r0_0.emb (ix2 s' l')
        = ix2 (n0 := 1024) (n1 := 128) ⟨s'.val, by have := s'.isLt; omega⟩ l' := fun s' l' =>
      funext fun a => Fin.ext (by
        match a with
        | ⟨0, _⟩ => show 0 + 1 * s'.val = s'.val; omega
        | ⟨1, _⟩ => show 0 + 1 * l'.val = l'.val; omega)
    have hld : ∀ (s' : Fin 512) (l' : Fin 128), View.ld x0 r0_0 (ix2 s' l')
        = x0 (ix2 (n0 := 1024) (n1 := 128) ⟨s'.val, by have := s'.isLt; omega⟩ l') := fun s' l' => congrArg x0 (hemb s' l')
    have key : ∀ s' : Fin 512, halfRow (r0_0.emb (ix2 s l) 0) s' = ⟨s'.val, by have := s'.isLt; omega⟩ := fun s' =>
      Fin.ext (by show (0 + 1 * s.val) / 512 * 512 + s'.val = s'.val; have := s.isLt; omega)
    rw [Tile.pay2_apply]
    simp only [key, hld]
    rw [hemb]

/-! ## The region's input and the blocks' places -/

variable (m : (ℓ : Loc nD τ sig) → Buf (Elt Ideal) ℓ) (ρ : Dev nD → PrngReg)

/-- The region finds the input viewed row-major as 65536 × 128. -/
theorem V_main_v0 (c : Dev nD) :
    (V m c main_v0 : S65536x128.Idx → EReal)
      = shapeCast S65536x128 (m ((c : Thread nD τ).loc main_arg0)) shapeCasts_S64x2x16x64x64_S65536x128 := by
  show StableHlo.after hostOps0 (fun b => m (c, b)) (Proc.devRef .tc main_v0) = _
  after_results
  rfl

/-- Both windows' blocks at point `t` are rows `1024 t … 1024 t + 1023`, all lanes (decided over the 64 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 64 := lt_of_lt_of_eq t.isLt N_0

/-- The array index of local index `y` of point `t`'s block. -/
def place (t : Fin cfg0.N) (y : S1024x128.Idx) : S65536x128.Idx :=
  ix2 (n0 := 65536) (n1 := 128)
    ⟨t.val * 1024 + (y 0).val, by have := point_lt t; have h : (y 0).val < 1024 := (y 0).isLt; omega⟩
    ⟨(y 1).val, (y 1).isLt⟩

theorem emb_in (t : Fin cfg0.N) (y : S1024x128.Idx) : ((cfg0.win 0).blk t).view.emb y = place t y := by
  obtain ⟨e0, e1, -, -⟩ := idx_facts t
  funext a; apply Fin.ext
  match a with
  | ⟨0, _⟩ => show win0_0.index t (0 : Fin 2) * 1024 + 1 * (y 0).val = t.val * 1024 + (y 0).val; omega
  | ⟨1, _⟩ => show win0_0.index t (1 : Fin 2) * 128 + 1 * (y 1).val = (y 1).val; omega

theorem emb_out (t : Fin cfg0.N) (y : S1024x128.Idx) : ((cfg0.win 1).blk t).view.emb y = place t y := by
  obtain ⟨-, -, e2, e3⟩ := idx_facts t
  funext a; apply Fin.ext
  match a with
  | ⟨0, _⟩ => show win0_1.index t (0 : Fin 2) * 1024 + 1 * (y 0).val = t.val * 1024 + (y 0).val; omega
  | ⟨1, _⟩ => show win0_1.index t (1 : Fin 2) * 128 + 1 * (y 1).val = (y 1).val; omega

/-- A half of a block is a tile of the array. -/
theorem tile_place (X : S65536x128.Idx → EReal) (t : Fin cfg0.N) (j : S1024x128.Idx) (s : Fin 512) (l : Fin 128) :
    X (place t (ix2 (halfRow (j 0) s) l)) = tile X (tileOf (place t j)) s l := by
  unfold tile
  refine congrArg X (funext fun a => Fin.ext ?_)
  have := point_lt t
  have h : (j 0).val < 1024 := (j 0).isLt
  match a with
  | ⟨0, _⟩ =>
    show t.val * 1024 + ((j 0).val / 512 * 512 + s.val) = (t.val * 1024 + (j 0).val) / 512 * 512 + s.val
    omega
  | ⟨1, _⟩ => rfl

/-! ## What a point writes back, and the array after the run -/

/-- WHAT POINT `t` WRITES BACK is its block of `GK` of the array as the region finds it. -/
theorem flushed_eq (c : Dev nD) (t : Fin cfg0.N) :
    (dats m 0 c).flushed 1 t = ((cfg0.win 1).blk t).view.read (Elt Ideal) (GK (V m c main_v0)) := by
  show (cfg0.win 1).cut (grid0.coords t) ((dats m 0 c).after 1 t) = _
  rw [after0_1]
  funext j
  show out0_1 (iblk m c 0 t) j = GK (V m c main_v0) (((cfg0.win 1).blk t).view.emb j)
  have hb : ∀ y : S1024x128.Idx, iblk m c 0 t y = V m c main_v0 (place t y) := fun y => by
    unfold iblk
    exact congrArg (V m c main_v0) (emb_in t y)
  rw [out_apply, emb_out]
  unfold GK
  simp only [hb, tile_place]

theorem mem_blk (t : Fin cfg0.N) (i : S65536x128.Idx) :
    i ∈ ((cfg0.win 1).blk t).view.set ↔ ∀ a : Fin 2, win0_1.index t a * S1024x128.size a ≤ (i a).val
      ∧ (i a).val < win0_1.index t a * S1024x128.size a + S1024x128.size a := by
  show i ∈ ((View.whole main_v1).slice (win0_1.rect t)).set ↔ _
  rw [View.set_slice_whole, Rect.mem_set_unit]
  exact Iff.rfl

/-- Row `r` lies in the block of point `r / 1024`. -/
theorem cover (i : S65536x128.Idx) : ∃ t : Fin cfg0.N, (cfg0.win 1).flush t = true ∧ i ∈ ((cfg0.win 1).blk t).view.set := by
  have h0 : (i 0).val < 65536 := (i 0).isLt
  have h1 : (i 1).val < 128 := (i 1).isLt
  let t : Fin cfg0.N := ⟨(i 0).val / 1024, by show _ < grid0.N; rw [N_0]; omega⟩
  obtain ⟨-, -, e2, e3⟩ := idx_facts t
  have e2' : win0_1.index t (0 : Fin 2) = (i 0).val / 1024 := e2
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 128 ≤ (i 1).val ∧ (i 1).val < win0_1.index t (1 : Fin 2) * 128 + 128; omega

/-- THE ARRAY after the region: `GK` of the array on entry. -/
theorem final (c : Dev nD) : (dats m 0 c).arrAt 1 cfg0.N = GK (V m c main_v0) :=
  (dats m 0 c).arrAt_eq_of_cover 1 (GK (V m c main_v0)) (fun t _ => flushed_eq m c t) cover

/-! ## The result -/

/-- After the region the array is viewed back in five dimensions. -/
theorem result (c : Dev nD) :
    (Pipeline.afterTail₀ cfgs (dats m) 0 (V0 m) [hostOps1] c main_v2 : S64x2x16x64x64.Idx → EReal)
      = shapeCast S64x2x16x64x64 (GK (V m c main_v0)) shapeCasts_S65536x128_S64x2x16x64x64 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = GK (V m c main_v0) :=
    (Pipeline.withArrays_arr spec0 launch0.win.arr_inj c _ _ 1).trans (final m c)
  rw [hw]
  rfl

/-- THE RUN, READ: on real entries the program ends with its result at the instance normalisation `G` of its input, the
    input unchanged. -/
theorem run (hx : ∀ (c : Dev nD) (i : S64x2x16x64x64.Idx), ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((result m c).trans (by rw [V_main_v0]; exact reshape_GK _ (hx c) _ _)),
        ((h c).2 main_arg0 (Pipeline.mem_restRefs_of main_arg0 (by decide) (by decide))).trans (W_main_arg0 m (dats m) c)⟩)
    (run_main m ρ)

end Cert.KernelIdeal.Array

end
-- ==== Proof.ReferenceRows.lean ====
/-
  One block of the row-wise program, read at an index.

  The body holds 16 rows of 65536 entries. For each row it sums the row and the row's squares, and stores
  `(v − μ)·ρ` with `μ`, `ρ` the mean and the reciprocal standard deviation of these two sums. The stored value at row `r`,
  column `k` is therefore the centre-then-scale form of `v (r, k)` over row `r`'s sums.
-/
import proofs.«130646_g2000006276570362_pallasbulk_1028_2_alg».proof.Proof.Gen.ReferenceIdeal.Skeleton
import proofs.«130646_g2000006276570362_pallasbulk_1028_2_alg».proof.Proof.InstanceNorm
import Idealize.ShloMosaic.PureOps.Ideal.Laws
import Idealize.ShloMosaic.Lib.ValueIdx
import Idealize.ShloMosaic.Lib.Pipeline.Value

noncomputable section

open scoped BigOperators

namespace Cert.ReferenceIdeal.Rows

open Idealize.ShloMosaic Idealize.ShloMosaic.ValueIdx Cert.ReferenceIdeal Cert.ReferenceIdeal.Gen Cert.InstanceNorm

/-- The sum over a row, at the row's index of the 16 × 1 result. -/
theorem rowSum_apply (v : FVec Ideal S16x65536 .f32) (h1 : S16x65536.Reduces [1] S16) (h2 : S16.ShapeCasts S16x1)
    (hφ : FKind.Formats .f32) (hacc : (0x00000000#32 : BitVec 32) = 0x00000000#32) (r : Fin 16) :
    shapeCast S16x1 (multiReduction .add [1] S16 v 0x00000000#32 h1 hφ hacc) h2 (ix2 r (0 : Fin 1))
      = ∑ k : Fin 65536, v (ix2 r k) := by
  refine (shapeCast_apply _ h2 (ix2 r (0 : Fin 1)) (ix1 r) (by
    rw [Shape.rowMajor_val_one, Shape.rowMajor_val_two]; show r.val = r.val * 1 + 0; omega)).trans ?_
  refine (Ideal.multiReduction_add_single v _ h1 hφ hacc (ix1 r)).trans ?_
  exact Finset.sum_congr rfl fun k _ => congrArg v (funext fun a => by match a with | ⟨0, _⟩ => rfl | ⟨1, _⟩ => rfl)

/-- The stored value at row `r`, column `k`. -/
theorem pay1_apply (v0 : FVec Ideal S16x65536 .f32) (r : Fin 16) (k : Fin 65536) :
    k0_pay1 (F := Ideal) v0 (ix2 r k)
      = centered (v0 (ix2 r k)) (∑ k' : Fin 65536, v0 (ix2 r k')) (∑ k' : Fin 65536, v0 (ix2 r k') * v0 (ix2 r k')) := by
  unfold k0_pay1
  simp only [shapeCast_self]
  rw [mulf_apply, subf_apply,
    broadcastTo_apply _ broadcasts_S16x1_S16x65536 (ix2 r k) (ix2 r (0 : Fin 1)) (fun a => by match a with | ⟨0, _⟩ => rfl | ⟨1, _⟩ => rfl),
    broadcastTo_apply _ broadcasts_S16x1_S16x65536 (ix2 r k) (ix2 r (0 : Fin 1)) (fun a => by match a with | ⟨0, _⟩ => rfl | ⟨1, _⟩ => rfl)]
  simp only [rsqrt, mulf_apply, subf_apply, addf_apply, maximumf_apply, broadcast_apply, Ideal.rsqrt_def]
  unfold centered rstd mean
  simp only [Ideal.ofBits_def, Ideal.ofBits_zero_f32]
  rw [rowSum_apply, rowSum_apply]
  simp only [mulf_apply]

end Cert.ReferenceIdeal.Rows

end
-- ==== Proof.ReferenceArray.lean ====
/-
  The row-wise program's run, read as values.

  Its region walks a 128 × 65536 array in 8 blocks of 16 whole rows, and the body normalises each row by its own sums. So
  what a point writes back is its block of ONE function of the array on entry — every entry centred and scaled by the sums
  of its row —, the blocks tile the array, and the array ends holding that function. Before the region the input is viewed
  row-major as 128 × 65536, after it the array is viewed back in five dimensions: the result is the instance normalisation
  `G` of the input.
-/
import proofs.«130646_g2000006276570362_pallasbulk_1028_2_alg».proof.Proof.Gen.ReferenceIdeal.Frame
import proofs.«130646_g2000006276570362_pallasbulk_1028_2_alg».proof.Proof.ReferenceRows
import proofs.«130646_g2000006276570362_pallasbulk_1028_2_alg».proof.Proof.InstanceNorm
import Idealize.ShloMosaic.Lib.Pipeline.Value
import Idealize.ShloMosaic.Lib.StableHlo.Run
import Idealize.ShloMosaic.Lib.ValueIdx

set_option maxRecDepth 16384

noncomputable section

open scoped BigOperators

namespace Cert.ReferenceIdeal.Array

open Idealize.ShloMosaic Idealize.ShloMosaic.TcCoe Idealize.ShloMosaic.ValueIdx Idealize.SL.Sem
open Idealize.ShloMosaic.Pipeline (Dat)
open Cert.ReferenceIdeal Cert.ReferenceIdeal.Gen Cert.InstanceNorm

/-! ## The block after the body, at a local index -/

theorem offsets_zero : (![0, 0] : Fin 2 → Nat) = fun _ => 0 := funext fun a => by fin_cases a <;> rfl

/-- What the body leaves in the output block, at any local index: the entry centred and scaled by the sums of its row. -/
theorem out_apply (x0 : Vec Ideal S16x65536 .f32) (j : S16x65536.Idx) :
    out0_1 (F := Ideal) x0 j
      = centered (x0 j) (∑ k : Fin 65536, x0 (ix2 (j 0) k)) (∑ k : Fin 65536, x0 (ix2 (j 0) k) * x0 (ix2 (j 0) k)) := by
  unfold out0_1
  rw [View.canon_unit_zero offsets_zero]
  simp only [View.ld_unit_zero (S := S16x65536) offsets_zero]
  obtain ⟨r, k, rfl⟩ : ∃ (r : Fin 16) (k : Fin 65536), j = ix2 r k := ⟨j 0, j 1, eq_ix2 j⟩
  exact Rows.pay1_apply x0 r k

/-! ## The region's input and the blocks' places -/

variable (m : (ℓ : Loc nD τ sig) → Buf (Elt Ideal) ℓ) (ρ : Dev nD → PrngReg)

/-- The region finds the input viewed row-major as 128 × 65536. -/
theorem V_main_v0 (c : Dev nD) :
    (V m c main_v0 : S128x65536.Idx → EReal)
      = shapeCast S128x65536 (m ((c : Thread nD τ).loc main_arg0)) shapeCasts_S64x2x16x64x64_S128x65536 := by
  show StableHlo.after hostOps0 (fun b => m (c, b)) (Proc.devRef .tc main_v0) = _
  after_results
  rfl

/-- Both windows' blocks at point `t` are rows `16 t … 16 t + 15`, whole (decided over the 8 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 8 := lt_of_lt_of_eq t.isLt N_0

/-- The array index of local index `y` of point `t`'s block. -/
def place (t : Fin cfg0.N) (y : S16x65536.Idx) : S128x65536.Idx :=
  ix2 (n0 := 128) (n1 := 65536)
    ⟨t.val * 16 + (y 0).val, by have := point_lt t; have h : (y 0).val < 16 := (y 0).isLt; omega⟩
    ⟨(y 1).val, (y 1).isLt⟩

theorem emb_in (t : Fin cfg0.N) (y : S16x65536.Idx) : ((cfg0.win 0).blk t).view.emb y = place t y := by
  obtain ⟨e0, e1, -, -⟩ := idx_facts t
  funext a; apply Fin.ext
  match a with
  | ⟨0, _⟩ => show win0_0.index t (0 : Fin 2) * 16 + 1 * (y 0).val = t.val * 16 + (y 0).val; omega
  | ⟨1, _⟩ => show win0_0.index t (1 : Fin 2) * 65536 + 1 * (y 1).val = (y 1).val; omega

theorem emb_out (t : Fin cfg0.N) (y : S16x65536.Idx) : ((cfg0.win 1).blk t).view.emb y = place t y := by
  obtain ⟨-, -, e2, e3⟩ := idx_facts t
  funext a; apply Fin.ext
  match a with
  | ⟨0, _⟩ => show win0_1.index t (0 : Fin 2) * 16 + 1 * (y 0).val = t.val * 16 + (y 0).val; omega
  | ⟨1, _⟩ => show win0_1.index t (1 : Fin 2) * 65536 + 1 * (y 1).val = (y 1).val; omega

/-- A row of a block is a row of the array. -/
theorem row_place (X : S128x65536.Idx → EReal) (t : Fin cfg0.N) (j : S16x65536.Idx) (k : Fin 65536) :
    X (place t (ix2 (j 0) k)) = X (ix2 ((place t j) 0) k) :=
  congrArg X (funext fun a => Fin.ext (by match a with | ⟨0, _⟩ => rfl | ⟨1, _⟩ => rfl))

/-! ## What a point writes back, and the array after the run -/

/-- WHAT POINT `t` WRITES BACK is its block of `GR` of the array as the region finds it. -/
theorem flushed_eq (c : Dev nD) (t : Fin cfg0.N) :
    (dats m 0 c).flushed 1 t = ((cfg0.win 1).blk t).view.read (Elt Ideal) (GR (V m c main_v0)) := by
  show (cfg0.win 1).cut (grid0.coords t) ((dats m 0 c).after 1 t) = _
  rw [after0_1]
  funext j
  show out0_1 (iblk m c 0 t) j = GR (V m c main_v0) (((cfg0.win 1).blk t).view.emb j)
  have hb : ∀ y : S16x65536.Idx, iblk m c 0 t y = V m c main_v0 (place t y) := fun y => by
    unfold iblk
    exact congrArg (V m c main_v0) (emb_in t y)
  rw [out_apply, emb_out]
  unfold GR
  simp only [hb, row_place]

theorem mem_blk (t : Fin cfg0.N) (i : S128x65536.Idx) :
    i ∈ ((cfg0.win 1).blk t).view.set ↔ ∀ a : Fin 2, win0_1.index t a * S16x65536.size a ≤ (i a).val
      ∧ (i a).val < win0_1.index t a * S16x65536.size a + S16x65536.size a := by
  show i ∈ ((View.whole main_v1).slice (win0_1.rect t)).set ↔ _
  rw [View.set_slice_whole, Rect.mem_set_unit]
  exact Iff.rfl

/-- Row `r` lies in the block of point `r / 16`. -/
theorem cover (i : S128x65536.Idx) : ∃ t : Fin cfg0.N, (cfg0.win 1).flush t = true ∧ i ∈ ((cfg0.win 1).blk t).view.set := by
  have h0 : (i 0).val < 128 := (i 0).isLt
  have h1 : (i 1).val < 65536 := (i 1).isLt
  let t : Fin cfg0.N := ⟨(i 0).val / 16, by show _ < grid0.N; rw [N_0]; omega⟩
  obtain ⟨-, -, e2, e3⟩ := idx_facts t
  have e2' : win0_1.index t (0 : Fin 2) = (i 0).val / 16 := e2
  refine ⟨t, flush0_1 t, ?_⟩
  rw [mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 65536 ≤ (i 1).val ∧ (i 1).val < win0_1.index t (1 : Fin 2) * 65536 + 65536; omega

/-- THE ARRAY after the region: `GR` of the array on entry. -/
theorem final (c : Dev nD) : (dats m 0 c).arrAt 1 cfg0.N = GR (V m c main_v0) :=
  (dats m 0 c).arrAt_eq_of_cover 1 (GR (V m c main_v0)) (fun t _ => flushed_eq m c t) cover

/-! ## The result -/

/-- After the region the array is viewed back in five dimensions. -/
theorem result (c : Dev nD) :
    (Pipeline.afterTail₀ cfgs (dats m) 0 (V0 m) [hostOps1] c main_v2 : S64x2x16x64x64.Idx → EReal)
      = shapeCast S64x2x16x64x64 (GR (V m c main_v0)) shapeCasts_S128x65536_S64x2x16x64x64 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = GR (V m c main_v0) :=
    (Pipeline.withArrays_arr spec0 launch0.win.arr_inj c _ _ 1).trans (final m c)
  rw [hw]
  rfl

/-- THE RUN, READ: the program ends with its result at the instance normalisation `G` of its input, the input unchanged. -/
theorem run :
    θ_run defs (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((result m c).trans (by rw [V_main_v0]; exact reshape_GR _ _ _)),
        ((h c).2 main_arg0 (Pipeline.mem_restRefs_of main_arg0 (by decide) (by decide))).trans (W_main_arg0 m (dats m) c)⟩)
    (run_main m ρ)

end Cert.ReferenceIdeal.Array

end
-- ==== Proof.lean ====
/-
  Instance normalisation of a (64, 2, 16, 64, 64) array — each of the 128 instances (n, c) centred by its mean and scaled by
  the reciprocal root of its variance plus ε, the variance taken as E[x²] − E[x]² clamped at 0 — computed two ways.

  One program views the array as 65536 rows of 128 lanes, walks it in blocks of two 512-row tiles, sums each tile by lanes
  and then across lanes, and writes `x·ρ + (0 − μ)·ρ`. The other views it as 128 rows of 65536, walks it 16 rows at a time,
  sums each row, and writes `(x − μ)·ρ`. Both use the same words for 2⁻¹⁶, ε and 0.

  Over the extended reals the two are the same function of the input wherever every entry is a real number, which the
  precondition says: the sums are then real, `ρ` is real because ε > 0, and `x·ρ + (0 − μ)·ρ = (x − μ)·ρ` is
  distributivity in ℝ; the tile's double sum is the row's sum re-indexed by `k = 128 s + l`, and all three views are
  row-major. (Proof/InstanceNorm.lean: the algebra and the views; Proof/KernelTile.lean, Proof/ReferenceRows.lean: each
  body's stored value at an index; Proof/KernelArray.lean, Proof/ReferenceArray.lean: each program's run with its result
  named; Proof/LibFinite.lean: the precondition read at an entry.) The idealisation rewrote nothing, so `preserves` is
  trivial; the three frames are the programs' runs with the results dropped.
-/
import proofs.«130646_g2000006276570362_pallasbulk_1028_2_alg».proof.Defs
import proofs.«130646_g2000006276570362_pallasbulk_1028_2_alg».proof.Proof.Gen.Kernel
import proofs.«130646_g2000006276570362_pallasbulk_1028_2_alg».proof.Proof.Gen.Kernel.Skeleton
import proofs.«130646_g2000006276570362_pallasbulk_1028_2_alg».proof.Proof.Gen.Kernel.Launch
import proofs.«130646_g2000006276570362_pallasbulk_1028_2_alg».proof.Proof.Gen.Kernel.Points
import proofs.«130646_g2000006276570362_pallasbulk_1028_2_alg».proof.Proof.Gen.Kernel.Frame
import proofs.«130646_g2000006276570362_pallasbulk_1028_2_alg».proof.Proof.Gen.KernelIdeal
import proofs.«130646_g2000006276570362_pallasbulk_1028_2_alg».proof.Proof.Gen.KernelIdeal.Skeleton
import proofs.«130646_g2000006276570362_pallasbulk_1028_2_alg».proof.Proof.Gen.KernelIdeal.Launch
import proofs.«130646_g2000006276570362_pallasbulk_1028_2_alg».proof.Proof.Gen.KernelIdeal.Points
import proofs.«130646_g2000006276570362_pallasbulk_1028_2_alg».proof.Proof.Gen.KernelIdeal.Frame
import proofs.«130646_g2000006276570362_pallasbulk_1028_2_alg».proof.Proof.Gen.ReferenceIdeal
import proofs.«130646_g2000006276570362_pallasbulk_1028_2_alg».proof.Proof.Gen.ReferenceIdeal.Skeleton
import proofs.«130646_g2000006276570362_pallasbulk_1028_2_alg».proof.Proof.Gen.ReferenceIdeal.Launch
import proofs.«130646_g2000006276570362_pallasbulk_1028_2_alg».proof.Proof.Gen.ReferenceIdeal.Points
import proofs.«130646_g2000006276570362_pallasbulk_1028_2_alg».proof.Proof.Gen.ReferenceIdeal.Frame
import proofs.«130646_g2000006276570362_pallasbulk_1028_2_alg».proof.Proof.Gen.Pre_finite_inputs
import proofs.«130646_g2000006276570362_pallasbulk_1028_2_alg».proof.Proof.LibFinite
import proofs.«130646_g2000006276570362_pallasbulk_1028_2_alg».proof.Proof.InstanceNorm
import proofs.«130646_g2000006276570362_pallasbulk_1028_2_alg».proof.Proof.KernelArray
import proofs.«130646_g2000006276570362_pallasbulk_1028_2_alg».proof.Proof.ReferenceArray
import Idealize.ShloMosaic.Adequacy
import Idealize.ShloMosaic.Init

noncomputable section

namespace Cert.Proof

open Idealize.ShloMosaic Idealize.SL.Sem

/-- Under the precondition every entry of the input is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x2x16x64x64.Idx) :
    ∃ r : ℝ, m ((c.tc : Thread Cert.KernelIdeal.nD Cert.KernelIdeal.τ).loc Cert.KernelIdeal.main_arg0) i = (r : EReal) :=
  Cert.LibFinite.real_of_all _ _ _ _ _ (congrFun (h c) ValueIdx.ix0) i

/-- From memories that agree on the input, both idealized programs end with the instance normalisation of the input. -/
theorem algebraic : Cert.algebraic_KernelIdeal_ReferenceIdeal := by
  intro m ρ m' ρ' hpre hagree
  refine ⟨fun c => Cert.InstanceNorm.G (m ((c.tc : Thread Cert.KernelIdeal.nD Cert.KernelIdeal.τ).loc Cert.KernelIdeal.main_arg0)),
    Cert.KernelIdeal.Array.run m ρ (real_of_pre m hpre), ?_⟩
  refine (θ_run Cert.ReferenceIdeal.defs _ _).mono (fun r h c => ⟨(h c).1.trans ?_, (h c).2⟩)
    (Cert.ReferenceIdeal.Array.run m' ρ')
  rw [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
